-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S16384 : Shape := ⟨1, ![16384]⟩
abbrev S256x4096 : Shape := ⟨2, ![256, 4096]⟩
abbrev S256 : Shape := ⟨1, ![256]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256, .f32⟩
  | .local _ .vmem, ⟨5, _⟩ => ⟨S256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  inb_S256_S256_0 : ∀ a, (![0] : Fin 1 → Nat) a + S256.size a ≤ S256.size a
  h_S256 : 0 < S256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S16384.size a
  hwx0_2 : ∀ i : grid0.Coords, EltTy.bits .f32 = 32 ∨ (Rect.block (s := S16384) S256.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S_ : Shape := ⟨0, ![]⟩
abbrev S16384 : Shape := ⟨1, ![16384]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S_S16384 : S_.BroadcastsInDim S16384 (![] : Fin 0 → Fin S16384.rank)

variable [Facts₀]

class Facts : Prop extends Facts₀ where

variable [Facts]
-- ==== Proof.Spec.lean ====
/-
  The mathematics both programs compute, row by row.

  For two rows `u`, `v` of extended reals of one length the HALVED COSINE is
  `(1/2) · (∑ u·v) / (√(∑ u·u) · √(∑ v·v))`: the inner product of the rows over the product of their Euclidean
  lengths, times one half — every operation the textbook one on the extended reals (the quotient and the square
  root with their conventions at zero, at the infinities and at the negatives), the half kept as the binary
  pattern both programs spell it with. `rowHalfCos` takes it over each of the 16384 rows of two
  [16384, 4096] arrays. Nothing here uses a law of arithmetic: the two programs spell this one formula with the
  same operations in the same order, and they differ only in how the rows are cut into blocks.
-/
import Idealize.ShloMosaic.PureOps.Ideal
import Idealize.ShloMosaic.Lib.ValueIdx

noncomputable section

namespace Cert.Cosine

open Idealize.ShloMosaic Idealize.ShloMosaic.ValueIdx

/-- The halved cosine of the angle between two rows: inner product over the product of the lengths, times the
    pattern of one half. -/
def halfCos {K : Nat} (u v : Fin K → EReal) : EReal :=
  Ideal.ofBits .f32 0x3F000000#32
    * Ideal.div (∑ k : Fin K, u k * v k) (Ideal.sqrt (∑ k : Fin K, u k * u k) * Ideal.sqrt (∑ k : Fin K, v k * v k))

/-- Row `r` of a [16384, 4096] array. -/
def row (x : (⟨2, ![16384, 4096]⟩ : Shape).Idx → EReal) (r : Fin 16384) : Fin 4096 → EReal :=
  fun k => x (ix2 r k)

/-- The halved cosine of each pair of rows of two [16384, 4096] arrays. -/
def rowHalfCos (x1 x2 : (⟨2, ![16384, 4096]⟩ : Shape).Idx → EReal) : (⟨1, ![16384]⟩ : Shape).Idx → EReal :=
  fun i => halfCos (row x1 (i 0)) (row x2 (i 0))

end Cert.Cosine

end
-- ==== Proof.RefValue.lean ====
/-
  The reference computes the halved cosine of each pair of rows.

  Read one operation at a time, the reference's result at row `i` is
  `half · ((0 + ∑ₖ x₁[i,k]·x₂[i,k]) / (√(0 + ∑ₖ x₁[i,k]²) · √(0 + ∑ₖ x₂[i,k]²)))`: each of the three sums starts
  from the zero pattern, which is the extended real `0`, so `0 + s = s` and the term is `rowHalfCos` at `i`.
-/
import proofs.«111608_j37434934952363_1_alg».proof.Proof.Gen.ReferenceIdeal.Read
import proofs.«111608_j37434934952363_1_alg».proof.Proof.Spec

noncomputable section

namespace Cert.Cosine.Ref

open Cert.ReferenceIdeal Cert.ReferenceIdeal.Read Idealize.ShloMosaic Idealize.ShloMosaic.ValueIdx

/-- The element of row `i` the three row sums read at their summation index `k` is entry `(i, k)`. -/
theorem idx_v1 (i : S16384.Idx) (k : Fin 4096) : idx_main_v1 i k = ix2 (i 0) k :=
  funext fun a => Fin.ext (by match a with | ⟨0, _⟩ => rfl | ⟨1, _⟩ => rfl)
theorem idx_v3 (i : S16384.Idx) (k : Fin 4096) : idx_main_v3 i k = ix2 (i 0) k :=
  funext fun a => Fin.ext (by match a with | ⟨0, _⟩ => rfl | ⟨1, _⟩ => rfl)
theorem idx_v5 (i : S16384.Idx) (k : Fin 4096) : idx_main_v5 i k = ix2 (i 0) k :=
  funext fun a => Fin.ext (by match a with | ⟨0, _⟩ => rfl | ⟨1, _⟩ => rfl)

/-- The reference's last stage, as a function of its two arguments, is the halved cosine row by row. -/
theorem result_eq (x0 x1 : (⟨S16384x4096, .f32⟩ : BufTy).Contents (Elt Ideal)) :
    val_main_v11 (F := Ideal) x0 x1 = Cert.Cosine.rowHalfCos x0 x1 := by
  funext i
  rw [val_main_v11_apply, val_main_v10_apply, val_main_cst_2_apply, val_main_v9_apply, val_main_v1_apply,
    val_main_v8_apply, val_main_v6_apply, val_main_v7_apply, val_main_v3_apply, val_main_v5_apply]
  simp only [val_main_cst_apply, val_main_cst_0_apply, val_main_cst_1_apply, val_main_v0_apply, val_main_v2_apply,
    val_main_v4_apply, idx_v1, idx_v3, idx_v5, Ideal.mulf_def, Ideal.hostDivf_def, Ideal.hostUnary_sqrt_def,
    Ideal.ofBits_def, Ideal.ofBits_zero_f32, zero_add]
  rfl

end Cert.Cosine.Ref

end
-- ==== Proof.KernelPoint.lean ====
/-
  One row of the kernel's block.

  The body takes a [256, 4096] block of each argument and stores, at row `p` of its [256] output block,
  `half · ((∑ₖ a[p,k]·b[p,k]) / (√(∑ₖ a[p,k]²) · √(∑ₖ b[p,k]²)))`: a lane reduction from the zero pattern over the
  second axis is the plain sum over that axis's 4096 coordinates, and every other operation acts entry by entry.
  That is the halved cosine of row `p` of the two blocks.
-/
import proofs.«111608_j37434934952363_1_alg».proof.Proof.Gen.KernelIdeal.Skeleton
import Idealize.ShloMosaic.PureOps.Ideal.Laws
import proofs.«111608_j37434934952363_1_alg».proof.Proof.Spec

noncomputable section

namespace Cert.Cosine.Kern

open Cert.KernelIdeal Cert.KernelIdeal.Gen Idealize.ShloMosaic Idealize.ShloMosaic.ValueIdx

/-- A lane reduction of a [256, 4096] block over its second axis, from the zero pattern, read at row `p`: the sum of
    the row's 4096 entries. -/
theorem rowSum (src : FVec Ideal S256x4096 .f32) (h : S256x4096.Reduces [1] S256) (hφ : FKind.Formats .f32)
    (hacc : (0x00000000#32 : BitVec 32) = FKind.add.neutral .f32 hφ) (p : Fin 256) :
    multiReduction .add [1] S256 src 0x00000000#32 h hφ hacc (ix1 p) = ∑ k : Fin 4096, src (ix2 p k) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-- What the body stores at row `p` of its output block: the halved cosine of row `p` of its two input blocks. -/
theorem pay_apply (a b : Vec Ideal S256x4096 .f32) (p : Fin 256) :
    k0_pay1 (F := Ideal) a b (ix1 p) = Cert.Cosine.halfCos (fun k : Fin 4096 => a (ix2 p k)) (fun k : Fin 4096 => b (ix2 p k)) := by
  unfold k0_pay1 Cert.Cosine.halfCos
  show Ideal.ofBits .f32 0x3F000000#32
      * Ideal.div (multiReduction (F := Ideal) .add [1] S256 (mulf a b) 0x00000000#32 reduces_S256x4096_S256 (.inl rfl) rfl (ix1 p))
          (Ideal.sqrt (multiReduction (F := Ideal) .add [1] S256 (mulf a a) 0x00000000#32 reduces_S256x4096_S256 (.inl rfl) rfl (ix1 p))
            * Ideal.sqrt (multiReduction (F := Ideal) .add [1] S256 (mulf b b) 0x00000000#32 reduces_S256x4096_S256 (.inl rfl) rfl (ix1 p))) = _
  exact congrArg₂ (fun s d : EReal => Ideal.ofBits .f32 0x3F000000#32 * Ideal.div s d)
    (rowSum (mulf a b) _ _ _ p)
    (congrArg₂ (fun u v : EReal => Ideal.sqrt u * Ideal.sqrt v) (rowSum (mulf a a) _ _ _ p) (rowSum (mulf b b) _ _ _ p))

end Cert.Cosine.Kern

end
-- ==== Proof.KernelArray.lean ====
/-
  From the blocks to the whole result array.

  The grid has 64 points. Point `t` is handed block-row `t` of each argument — rows `256·t … 256·t + 255`, all 4096
  columns — and writes back block `t` of the [16384] result. Row `p` of what it writes is the halved cosine of row
  `p` of its two input blocks, which are rows `256·t + p` of the arguments; so what point `t` writes back is block
  `t` of `rowHalfCos` of the arguments. The 64 blocks cover the result (row `r` lies in block `r / 256`), hence the
  result array ends holding `rowHalfCos` of the arguments, and the arguments are left as they were.
-/
import proofs.«111608_j37434934952363_1_alg».proof.Proof.Gen.KernelIdeal.Value
import proofs.«111608_j37434934952363_1_alg».proof.Proof.KernelPoint

noncomputable section

namespace Cert.Cosine.Arr

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-- The printed index maps over the 64 grid points: each argument's block moves down its rows with the result's block
    and stays at column block 0. -/
theorem rows_with_result : ∀ t : Fin cfg0.N, win0_0.index t (0 : Fin 2) = win0_2.index t (0 : Fin 1)
    ∧ win0_0.index t (1 : Fin 2) = 0
    ∧ win0_1.index t (0 : Fin 2) = win0_2.index t (0 : Fin 1)
    ∧ win0_1.index t (1 : Fin 2) = 0 :=
  (by decide +kernel : ∀ t : Fin grid0.N, _)

/-- Every one of the 64 blocks of the result is some point's. -/
theorem block_of_some_point : ∀ q : Fin 64, ∃ t : Fin cfg0.N, win0_2.index t (0 : Fin 1) = q.val :=
  (by decide +kernel : ∀ q : Fin 64, ∃ t : Fin grid0.N, win0_2.index t (0 : Fin 1) = q.val)

/-- What point `t` writes back is block `t` of the halved cosines of the arguments' rows. -/
theorem flushed_eq (c : Dev nD) (t : Fin cfg0.N) :
    (dats m 0 c).flushed 2 t
      = ((cfg0.win 2).blk t).view.read (Elt Ideal) (Cert.Cosine.rowHalfCos (V m c main_arg0) (V m c main_arg1)) := by
  rw [flushed2]
  unfold out0_2
  rw [View.canon_unit_zero off1]
  simp only [View.ld_unit_zero (S := S256x4096) off2]
  obtain ⟨e0, e1, e2, e3⟩ := rows_with_result t
  funext j
  obtain ⟨p, rfl⟩ : ∃ p : Fin 256, j = ix1 p := ⟨j 0, eq_ix1 j⟩
  show k0_pay1 (F := Ideal) (iblk m c 0 t) (iblk m c 1 t) (ix1 p)
    = Cert.Cosine.rowHalfCos (V m c main_arg0) (V m c main_arg1) (((cfg0.win 2).blk t).view.emb (ix1 p))
  refine (Cert.Cosine.Kern.pay_apply (iblk m c 0 t) (iblk m c 1 t) p).trans ?_
  have hrow0 : ∀ k : Fin 4096, (iblk m c 0 t : Vec Ideal S256x4096 .f32) (ix2 p k)
      = Cert.Cosine.row (V m c main_arg0) ((((cfg0.win 2).blk t).view.emb (ix1 p)) 0) k := by
    intro k
    show V m c main_arg0 (((cfg0.win 0).blk t).view.emb (ix2 p k))
      = V m c main_arg0 (ix2 ((((cfg0.win 2).blk t).view.emb (ix1 p)) 0) k)
    refine congrArg (V m c main_arg0) ?_
    funext a
    apply Fin.ext
    match a with
    | ⟨0, _⟩ => show win0_0.index t (0 : Fin 2) * 256 + 1 * p.val = win0_2.index t (0 : Fin 1) * 256 + 1 * p.val; omega
    | ⟨1, _⟩ => show win0_0.index t (1 : Fin 2) * 4096 + 1 * k.val = k.val; omega
  have hrow1 : ∀ k : Fin 4096, (iblk m c 1 t : Vec Ideal S256x4096 .f32) (ix2 p k)
      = Cert.Cosine.row (V m c main_arg1) ((((cfg0.win 2).blk t).view.emb (ix1 p)) 0) k := by
    intro k
    show V m c main_arg1 (((cfg0.win 1).blk t).view.emb (ix2 p k))
      = V m c main_arg1 (ix2 ((((cfg0.win 2).blk t).view.emb (ix1 p)) 0) k)
    refine congrArg (V m c main_arg1) ?_
    funext a
    apply Fin.ext
    match a with
    | ⟨0, _⟩ => show win0_1.index t (0 : Fin 2) * 256 + 1 * p.val = win0_2.index t (0 : Fin 1) * 256 + 1 * p.val; omega
    | ⟨1, _⟩ => show win0_1.index t (1 : Fin 2) * 4096 + 1 * k.val = k.val; omega
  exact congrArg₂ (Cert.Cosine.halfCos (K := 4096)) (funext hrow0) (funext hrow1)

/-- An index of the result is in point `t`'s block iff it lies in the block's range of 256 rows. -/
theorem mem_blk (t : Fin cfg0.N) (i : S16384.Idx) :
    i ∈ ((cfg0.win 2).blk t).view.set
      ↔ ∀ a : Fin 1, win0_2.index t a * S256.size a ≤ (i a).val ∧ (i a).val < win0_2.index t a * S256.size a + S256.size a := by
  show i ∈ ((View.whole main_v0).slice (win0_2.rect t)).set ↔ _
  rw [View.set_slice_whole, Rect.mem_set_unit]
  exact Iff.rfl

/-- Every row of the result is in some point's block: row `r` in block `r / 256`. -/
theorem cover (i : S16384.Idx) : ∃ t : Fin cfg0.N, (cfg0.win 2).flush t = true ∧ i ∈ ((cfg0.win 2).blk t).view.set := by
  have hi : (i 0).val < 16384 := (i 0).isLt
  obtain ⟨t, ht⟩ := block_of_some_point ⟨(i 0).val / 256, by omega⟩
  have q : win0_2.index t (0 : Fin 1) = (i 0).val / 256 := ht
  refine ⟨t, flush0_2 t, ?_⟩
  rw [mem_blk]
  intro a
  match a with
  | ⟨0, _⟩ =>
    show win0_2.index t (0 : Fin 1) * 256 ≤ (i 0).val ∧ (i 0).val < win0_2.index t (0 : Fin 1) * 256 + 256
    omega

/-- The result array after the run: the halved cosine of each pair of rows of the arguments. -/
theorem final (c : Dev nD) : (dats m 0 c).arrAt 2 cfg0.N
    = Cert.Cosine.rowHalfCos (m ((c : Thread nD τ).loc main_arg0)) (m ((c : Thread nD τ).loc main_arg1)) :=
  (dats m 0 c).arrAt_eq_of_cover 2 (Cert.Cosine.rowHalfCos (V m c main_arg0) (V m c main_arg1))
    (fun t _ => flushed_eq m c t) cover

/-- The run, read: the result at the halved cosines of the arguments' rows, the arguments unchanged. -/
theorem run : θ_run defs (onTc (τ := τ) (main (F := Ideal))) ⟨m, fun _ => 0, ρ⟩ fun r => ∀ c : Dev nD,
      r.2.mem ((c : Thread nD τ).loc main_v0)
        = Cert.Cosine.rowHalfCos (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Cosine.Arr

end
-- ==== Proof.lean ====
/-
  The halved cosine similarity of the rows of two [16384, 4096] arrays: a kernel over 64 blocks of 256 rows against
  the same formula on whole arrays.

  Both programs compute, for each row `i`, `(1/2) · (∑ₖ x₁[i,k]·x₂[i,k]) / (√(∑ₖ x₁[i,k]²) · √(∑ₖ x₂[i,k]²))`, with the
  same operations in the same order: three sums along the row, two square roots, a product, a quotient and the product
  with one half. At the ideal reading every one of these is the exact operation on the extended reals, the kernel's
  lane reduction and the reference's reduce are the same finite sum (the reference's starts from a zero that adds
  nothing), and the kernel's quotient and square root are the reference's. So no law of arithmetic is needed and the
  finiteness of the inputs is never used: what is proved is that the kernel's cut of the rows into 64 blocks of 256
  puts row `256·t + p` of the result where the reference puts it.

  * `Proof/Spec.lean`: the formula (`halfCos`, `rowHalfCos`).
  * `Proof/RefValue.lean`: the reference's result is `rowHalfCos` of its arguments.
  * `Proof/KernelPoint.lean`: row `p` of what the body stores is `halfCos` of row `p` of its two input blocks.
  * `Proof/KernelArray.lean`: point `t`'s block is block `t` of `rowHalfCos`, the blocks cover the result, and so
    the kernel's result array ends at `rowHalfCos` of its arguments.
  * here: the three frames (generated for the two kernels; the reference's is its run with the result dropped), the
    idealization (the ideal pass rewrote nothing) and the equality of the two results.
-/
import proofs.«111608_j37434934952363_1_alg».proof.Defs
import proofs.«111608_j37434934952363_1_alg».proof.Proof.Gen.Kernel
import proofs.«111608_j37434934952363_1_alg».proof.Proof.Gen.Kernel.Frame
import proofs.«111608_j37434934952363_1_alg».proof.Proof.Gen.KernelIdeal
import proofs.«111608_j37434934952363_1_alg».proof.Proof.Gen.KernelIdeal.Frame
import proofs.«111608_j37434934952363_1_alg».proof.Proof.Gen.KernelIdeal.Value
import proofs.«111608_j37434934952363_1_alg».proof.Proof.Gen.ReferenceIdeal
import proofs.«111608_j37434934952363_1_alg».proof.Proof.Gen.ReferenceIdeal.Run
import proofs.«111608_j37434934952363_1_alg».proof.Proof.Gen.ReferenceIdeal.Read
import proofs.«111608_j37434934952363_1_alg».proof.Proof.Gen.Pre_finite_inputs
import proofs.«111608_j37434934952363_1_alg».proof.Proof.RefValue
import proofs.«111608_j37434934952363_1_alg».proof.Proof.KernelArray

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference is a straight line of host operations: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel, so there is nothing to restate. -/
theorem preserves : Cert.preserves_Kernel_KernelIdeal := trivial

/-- From memories that agree on the two arguments the kernel's result array and the reference's both end at the
    halved cosine of each pair of rows. -/
theorem algebraic : Cert.algebraic_KernelIdeal_ReferenceIdeal := by
  intro m ρ m' ρ' _ hagree
  refine ⟨_, Cert.Cosine.Arr.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v11_eq _ _).trans (Cert.Cosine.Ref.result_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
